-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x128 : Shape := ⟨2, ![4096, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4096x256 .f32) (main_arg1 : FVec F S4096x256 .f32) (main_arg2 : FVec F S4096x128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S4096x256 : Shape := ⟨2, ![4096, 256]⟩
abbrev S4096x128 : Shape := ⟨2, ![4096, 128]⟩
abbrev S4096x384 : Shape := ⟨2, ![4096, 384]⟩
abbrev S2048x256 : Shape := ⟨2, ![2048, 256]⟩
abbrev S2048x128 : Shape := ⟨2, ![2048, 128]⟩
abbrev S2048x384 : Shape := ⟨2, ![2048, 384]⟩
abbrev S2048 : Shape := ⟨1, ![2048]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x128, .f32⟩
  | .hbm, ⟨3, _⟩ => ⟨S4096x384, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x128, .f32⟩
  | .local _ .vmem, ⟨5, _⟩ => ⟨S2048x128, .f32⟩
  | .local _ .vmem, ⟨6, _⟩ => ⟨S2048x384, .f32⟩
  | .local _ .vmem, ⟨7, _⟩ => ⟨S2048x384, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  inb_S2048x384_S2048x256_0_0 : ∀ a, (![0, 0] : Fin 2 → Nat) a + S2048x256.size a ≤ S2048x384.size a
  inb_S2048x128_S2048x128_0_0 : ∀ a, (![0, 0] : Fin 2 → Nat) a + S2048x128.size a ≤ S2048x128.size a
  h_S2048x128 : 0 < S2048x128.numel
  inb_S2048x384_S2048x128_0_256 : ∀ a, (![0, 256] : Fin 2 → Nat) a + S2048x128.size a ≤ S2048x384.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .f32 = 32 ∨ (Rect.block (s := S4096x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x256.size a
  hwx0_1 : ∀ i : grid0.Coords, EltTy.bits .f32 = 32 ∨ (Rect.block (s := S4096x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S4096x128.size a
  hwx0_2 : ∀ i : grid0.Coords, EltTy.bits .f32 = 32 ∨ (Rect.block (s := S4096x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x384.size a ≤ S4096x384.size a
  hwx0_3 : ∀ i : grid0.Coords, EltTy.bits .f32 = 32 ∨ (Rect.block (s := S4096x384) S2048x384.size (cc0_transform_3 i) (hinb0_3 i)).WholeWords (EltTy.packing .f32)

variable [Facts₀]

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S4096x384 : Shape := ⟨2, ![4096, 384]⟩

abbrev nBuf : Space → Nat
  | .hbm => 18
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x256, .f32⟩
  | .hbm, ⟨11, _⟩ => ⟨S4096x256, .i1⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x384, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  concatenates_S4096x256_S4096x128_S4096x384_d1 : Shape.Concatenates [S4096x256, S4096x128] S4096x384 1

variable [Facts₀]

class Facts : Prop extends Facts₀ where

variable [Facts]
-- ==== Proof.RowSpec.lean ====
/-
  The function both programs compute, one output row at a time.

  An output row of 384 entries depends on ONE row of each input: the 256 entries `a` of the first input's row,
  the 256 entries `b` of the second input's row, and the 128 entries `c` of the third input's row.  Its first
  256 entries are `a j · M` where `a j ≥ 0` and `a j · m` elsewhere, with `M` the largest and `m` the smallest
  entry of `b` (folds of `max` from `-∞` and of `min` from `+∞` over the 256 columns: commutative and associative on
  the extended reals, so the order the two programs fold in does not matter); its last 128 entries are `c`
  unchanged.  Nothing here needs the inputs to be finite: both sides apply the same operations to the same
  operands, so no law that fails at an infinity is used.
-/
import Idealize.ShloMosaic.PureOps.Ideal
import Idealize.ShloMosaic.PureOps.Ideal.Laws
import Idealize.ShloMosaic.Lib.ValueIdx

noncomputable section

namespace Cert.RowSpec

open Idealize.ShloMosaic Idealize.ShloMosaic.ValueIdx

/-- The largest entry of a row of 256 extended reals, folded from `-∞`. -/
def rowMax (b : Fin 256 → Ideal .f32) : Ideal .f32 :=
  (Finset.univ : Finset (Fin 256)).fold (FloatOps.maximumf (F := Ideal) (φ := .f32)) (FloatOps.ofBits .f32 0xFF800000#32) b

/-- The smallest entry of a row of 256 extended reals, folded from `+∞`. -/
def rowMin (b : Fin 256 → Ideal .f32) : Ideal .f32 :=
  (Finset.univ : Finset (Fin 256)).fold (FloatOps.minimumf (F := Ideal) (φ := .f32)) (FloatOps.ofBits .f32 0x7F800000#32) b

/-- `a · M` where `a ≥ 0`, `a · m` elsewhere: the largest of the products of `a` with a row whose extremes are `M` and `m`. -/
def scaled (a M m : Ideal .f32) : Ideal .f32 :=
  Scalar.select (FloatOps.cmpf .oge a (FloatOps.ofBits .f32 0x00000000#32)) (FloatOps.mulf a M) (FloatOps.mulf a m)

/-- One output row from the three input rows: 256 scaled entries, then the third row's 128 entries. -/
def outRow (a b : Fin 256 → Ideal .f32) (c : Fin 128 → Ideal .f32) (j : Fin 384) : Ideal .f32 :=
  if h : j.val < 256 then scaled (a ⟨j.val, h⟩) (rowMax b) (rowMin b) else c ⟨j.val - 256, by have := j.isLt; omega⟩

theorem outRow_lt (a b : Fin 256 → Ideal .f32) (c : Fin 128 → Ideal .f32) (j : Fin 384) (h : j.val < 256) :
    outRow a b c j = scaled (a ⟨j.val, h⟩) (rowMax b) (rowMin b) := by
  unfold outRow; rw [dif_pos h]

theorem outRow_ge (a b : Fin 256 → Ideal .f32) (c : Fin 128 → Ideal .f32) (j : Fin 384) (h : ¬ j.val < 256) :
    outRow a b c j = c ⟨j.val - 256, by have := j.isLt; omega⟩ := by
  unfold outRow; rw [dif_neg h]

/-- The whole result array, 4096 rows: row `r` is `outRow` of row `r` of each input. -/
def outArr (x0 x1 : (⟨2, ![4096, 256]⟩ : Shape).Idx → Ideal .f32) (x2 : (⟨2, ![4096, 128]⟩ : Shape).Idx → Ideal .f32) :
    (⟨2, ![4096, 384]⟩ : Shape).Idx → Ideal .f32 :=
  fun i => outRow (fun k => x0 (ix2 (i 0 : Fin 4096) k)) (fun k => x1 (ix2 (i 0 : Fin 4096) k)) (fun k => x2 (ix2 (i 0 : Fin 4096) k)) (i 1 : Fin 384)

theorem outArr_ix2 (x0 x1 : (⟨2, ![4096, 256]⟩ : Shape).Idx → Ideal .f32) (x2 : (⟨2, ![4096, 128]⟩ : Shape).Idx → Ideal .f32)
    (r : Fin 4096) (j : Fin 384) :
    outArr x0 x1 x2 (ix2 r j) = outRow (fun k => x0 (ix2 r k)) (fun k => x1 (ix2 r k)) (fun k => x2 (ix2 r k)) j := rfl

end Cert.RowSpec

end
-- ==== Proof.RefSide.lean ====
/-
  The reference's result array is `outArr` of its arguments.

  Its last operation joins two arrays along the columns: a column below 256 reads the select of the two products,
  a column from 256 on reads the third argument at that column less 256.  In the first case the chain of pointwise
  operations and broadcasts reads back to one entry of the first argument and to the two reductions of the second
  argument at the row; each reduction over the column axis is the fold, from its initial value, over the row's 256
  columns.
-/
import proofs.«109780_j10926396801967_2_alg».proof.Proof.Gen.ReferenceIdeal.Read
import proofs.«109780_j10926396801967_2_alg».proof.Proof.RowSpec
import Idealize.ShloMosaic.Lib.Pipeline.Value
import Idealize.ShloMosaic.Lib.ValueIdx
import Idealize.ShloMosaic.PureOps.Ideal.Laws

set_option maxRecDepth 16384

noncomputable section

namespace Cert.RefSide

open Idealize.ShloMosaic Idealize.ShloMosaic.ValueIdx Cert.ReferenceIdeal Cert.ReferenceIdeal.Gen Cert.ReferenceIdeal.Read Cert.RowSpec

/-- The column axis of a 4096 × 256 array is the one the reductions drop. -/
theorem reduces_cols : S4096x256.Reduces [1] S4096 := by decide

/-- Row `r` with column `k` put back on the dropped axis is the entry `(r, k)`. -/
theorem lift_cols (r : Fin 4096) (k : Fin 256) : reduces_cols.lift (ix1 r) k = ix2 r k := by
  funext a; apply Fin.ext
  match a with
  | ⟨0, _⟩ => rfl
  | ⟨1, _⟩ => rfl

theorem comp_lift_cols (x1 : S4096x256.Idx → Ideal .f32) (r : Fin 4096) :
    (x1 ∘ reduces_cols.lift (ix1 r)) = fun k : Fin 256 => x1 (ix2 r k) :=
  funext fun k => congrArg x1 (lift_cols r k)

/-- The row maximum the reference takes, at row `r`. -/
theorem rowMax_eq (x1 : S4096x256.Idx → Ideal .f32) (r : Fin 4096) :
    val_main_v0 (F := Ideal) x1 (ix1 r) = rowMax (fun k => x1 (ix2 r k)) := by
  unfold val_main_v0
  rw [Host.reduce_eq_fold_single (FloatOps.maximumf (F := Ideal) (φ := .f32)) x1 _ reducesTo_S4096x256_S4096_d1 reduces_cols h_S_ (ix1 r), comp_lift_cols]
  rfl

/-- The row minimum the reference takes, at row `r`. -/
theorem rowMin_eq (x1 : S4096x256.Idx → Ideal .f32) (r : Fin 4096) :
    val_main_v2 (F := Ideal) x1 (ix1 r) = rowMin (fun k => x1 (ix2 r k)) := by
  unfold val_main_v2
  rw [Host.reduce_eq_fold_single (FloatOps.minimumf (F := Ideal) (φ := .f32)) x1 _ reducesTo_S4096x256_S4096_d1 reduces_cols h_S_ (ix1 r), comp_lift_cols]
  rfl

/-- The select of the two products at row `r`, column `q`. -/
theorem select_eq (x0 x1 : S4096x256.Idx → Ideal .f32) (r : Fin 4096) (q : Fin 256) :
    val_main_v10 (F := Ideal) x0 x1 (ix2 r q)
      = scaled (x0 (ix2 r q)) (rowMax (fun k => x1 (ix2 r k))) (rowMin (fun k => x1 (ix2 r k))) := by
  rw [val_main_v10_apply, val_main_v5_apply, val_main_v7_apply, val_main_v9_apply, val_main_v6_apply, val_main_v8_apply,
    val_main_v1_apply, val_main_v3_apply, val_main_v4_apply, val_main_cst_1_apply]
  have e0 : idx_main_v1 (idx_main_v6 (ix2 r q)) = ix1 r := funext fun a => by match a with | ⟨0, _⟩ => rfl
  have e2 : idx_main_v3 (idx_main_v8 (ix2 r q)) = ix1 r := funext fun a => by match a with | ⟨0, _⟩ => rfl
  rw [e0, e2, rowMax_eq, rowMin_eq]
  rfl

/-- The reference's result is `outArr` of its three arguments. -/
theorem result_eq (x0 x1 : S4096x256.Idx → Ideal .f32) (x2 : S4096x128.Idx → Ideal .f32) :
    val_main_v11 (F := Ideal) x0 x1 x2 = outArr x0 x1 x2 := by
  funext i
  obtain ⟨r, j, rfl⟩ : ∃ (r : Fin 4096) (j : Fin 384), i = ix2 r j := ⟨i 0, i 1, eq_ix2 i⟩
  rw [outArr_ix2]
  unfold val_main_v11
  by_cases h : j.val < 256
  · rw [outRow_lt _ _ _ j h]
    rw [concatenate_pair_apply_left (1 : Fin 2) (val_main_v10 (F := Ideal) x0 x1) x2 concatenates_S4096x256_S4096x128_S4096x384_d1
      (ix2 r j) rfl (ix2 r ⟨j.val, h⟩) (fun b => by match b with | ⟨0, _⟩ => rfl | ⟨1, _⟩ => rfl)]
    exact select_eq x0 x1 r ⟨j.val, h⟩
  · rw [outRow_ge _ _ _ j h]
    exact concatenate_pair_apply_right (1 : Fin 2) (val_main_v10 (F := Ideal) x0 x1) x2 concatenates_S4096x256_S4096x128_S4096x384_d1
      (ix2 r j) rfl rfl (ix2 r ⟨j.val - 256, by have := j.isLt; omega⟩)
      (fun b hb => by match b with | ⟨0, _⟩ => rfl | ⟨1, _⟩ => exact absurd rfl hb)
      (by show (j.val - 256) + 256 = j.val; omega)

end Cert.RefSide

end
-- ==== Proof.KernelBlock.lean ====
/-
  What one grid point leaves in the output block: each of its 2048 rows is `outRow` of the same row of the three
  input blocks.

  The body writes the block in two pieces: columns 0–255 (the select of the two products) and columns 256–383
  (the third input's block).  Read back, an entry in a column from 256 on is under the later piece; an entry in a
  lower column is outside it and under the earlier one.  In the first piece the row's maximum and minimum are the
  lane reductions over the column axis, cast to a column and broadcast along the row, so every column of a row
  sees its own row's extremes.
-/
import proofs.«109780_j10926396801967_2_alg».proof.Proof.Gen.KernelIdeal.Frame
import proofs.«109780_j10926396801967_2_alg».proof.Proof.RowSpec
import Idealize.ShloMosaic.Lib.Pipeline.Value
import Idealize.ShloMosaic.Lib.ValueIdx
import Idealize.ShloMosaic.PureOps.Ideal.Laws

set_option maxRecDepth 16384

noncomputable section

namespace Cert.KernelBlock

open Idealize.ShloMosaic Idealize.ShloMosaic.TcCoe Idealize.ShloMosaic.Tactic Idealize.ShloMosaic.ValueIdx
open Idealize.SL Idealize.SL.Sem
open Cert.KernelIdeal Cert.KernelIdeal.Gen Cert.RowSpec

theorem zero_off : (![0, 0] : Fin 2 → Nat) = fun _ => 0 := funext fun a => by fin_cases a <;> rfl

/-- A vector of 2048 row values, cast to a column and broadcast along the 256 columns, reads its row's value. -/
theorem column_broadcast (v : FVec Ideal S2048 .f32) (p : Fin 2048) (q : Fin 256) :
    broadcastTo S2048x256 (shapeCast S2048x1 v shapeCasts_S2048_S2048x1) broadcasts_S2048x1_S2048x256 (ix2 p q) = v (ix1 p) := by
  rw [broadcastTo_apply _ broadcasts_S2048x1_S2048x256 (ix2 p q) (ix2 p (0 : Fin 1))
    (fun a => by match a with | ⟨0, _⟩ => rfl | ⟨1, _⟩ => rfl)]
  exact shapeCast_apply v shapeCasts_S2048_S2048x1 (ix2 p (0 : Fin 1)) (ix1 p)
    (by rw [Shape.rowMajor_val_one, Shape.rowMajor_val_two]; show p.val = p.val * 1 + 0; omega)

/-- Row `p` with column `k` put back on the dropped axis is the entry `(p, k)`. -/
theorem lift_cols (p : Fin 2048) (k : Fin 256) : reduces_S2048x256_S2048.lift (ix1 p) k = ix2 p k := by
  funext a; apply Fin.ext
  match a with
  | ⟨0, _⟩ => rfl
  | ⟨1, _⟩ => rfl

theorem comp_lift_cols (x1 : FVec Ideal S2048x256 .f32) (p : Fin 2048) :
    (x1 ∘ reduces_S2048x256_S2048.lift (ix1 p)) = fun k : Fin 256 => x1 (ix2 p k) :=
  funext fun k => congrArg x1 (lift_cols p k)

/-- The lane maximum over the columns, at row `p`. -/
theorem lane_max (x1 : FVec Ideal S2048x256 .f32) (p : Fin 2048) :
    multiReduction .maximumf [1] S2048 x1 0xFF800000#32 reduces_S2048x256_S2048 (.inl rfl) rfl (ix1 p)
      = rowMax (fun k => x1 (ix2 p k)) := by
  refine (multiReduction_maximumf_eq_fold x1 _ reduces_S2048x256_S2048 (.inl rfl) rfl (ix1 p)).trans ?_
  rw [reduces_S2048x256_S2048.fold_filter_drop_single, comp_lift_cols]
  rfl

/-- The lane minimum over the columns, at row `p`. -/
theorem lane_min (x1 : FVec Ideal S2048x256 .f32) (p : Fin 2048) :
    multiReduction .minimumf [1] S2048 x1 0x7F800000#32 reduces_S2048x256_S2048 (.inl rfl) rfl (ix1 p)
      = rowMin (fun k => x1 (ix2 p k)) := by
  refine (multiReduction_minimumf_eq_fold x1 _ reduces_S2048x256_S2048 (.inl rfl) rfl (ix1 p)).trans ?_
  rw [reduces_S2048x256_S2048.fold_filter_drop_single, comp_lift_cols]
  rfl

/-- The first piece's payload at row `p`, column `q`. -/
theorem select_payload (x0 x1 : Vec Ideal S2048x256 .f32) (p : Fin 2048) (q : Fin 256) :
    k0_pay1 x0 x1 (ix2 p q) = scaled (x0 (ix2 p q)) (rowMax (fun k => x1 (ix2 p k))) (rowMin (fun k => x1 (ix2 p k))) := by
  unfold k0_pay1 scaled
  dsimp only [select, cmpf, mulf, broadcast]
  rw [column_broadcast, column_broadcast, lane_max, lane_min]

end Cert.KernelBlock

end
-- ==== Proof.KernelPieces.lean ====
/-
  The output block one grid point leaves, entry by entry.

  The block's contents are its two written pieces read back, the later one first: columns 256–383 hold the third
  input's block, columns 0–255 the select payload.  An entry `(p, q)` with `q ≥ 256` lies in the later piece at
  local column `q − 256`; with `q < 256` it lies outside the later piece (whose columns start at 256) and in the
  earlier one at the same coordinates.  Either way the entry is `outRow` of row `p` of the three input blocks.
-/
import proofs.«109780_j10926396801967_2_alg».proof.Proof.KernelBlock

set_option maxRecDepth 16384

noncomputable section

namespace Cert.KernelBlock

open Idealize.ShloMosaic Idealize.ShloMosaic.TcCoe Idealize.ShloMosaic.Tactic Idealize.ShloMosaic.ValueIdx
open Idealize.SL Idealize.SL.Sem
open Cert.KernelIdeal Cert.KernelIdeal.Gen Cert.RowSpec

/-- The rectangle of the earlier piece: all rows, columns 0–255. -/
abbrev rLo : Rect S2048x384 := Rect.unit ![0, 0] S2048x256.size inb_S2048x384_S2048x256_0_0
/-- The rectangle of the later piece: all rows, columns 256–383. -/
abbrev rHi : Rect S2048x384 := Rect.unit ![0, 256] S2048x128.size inb_S2048x384_S2048x128_0_256

/-- Entry `(p, q)` of the block with `q < 256` is entry `(p, q)` of the piece at column offset 0. -/
theorem emb_low (p : Fin 2048) (q : Fin 384) (h : q.val < 256) :
    rLo.emb (ix2 p (⟨q.val, h⟩ : Fin 256)) = ix2 p q := by
  funext a; apply Fin.ext
  match a with
  | ⟨0, _⟩ => show 0 + 1 * p.val = p.val; omega
  | ⟨1, _⟩ => show 0 + 1 * q.val = q.val; omega

/-- Entry `(p, q)` of the block with `q ≥ 256` is entry `(p, q − 256)` of the piece at column offset 256. -/
theorem emb_high (p : Fin 2048) (q : Fin 384) (h : ¬ q.val < 256) :
    rHi.emb (ix2 p (⟨q.val - 256, by have := q.isLt; omega⟩ : Fin 128)) = ix2 p q := by
  funext a; apply Fin.ext
  match a with
  | ⟨0, _⟩ => show 0 + 1 * p.val = p.val; omega
  | ⟨1, _⟩ => show 256 + 1 * (q.val - 256) = q.val; omega

/-- A column below 256 is outside the piece whose columns start at 256. -/
theorem not_mem_high (p : Fin 2048) (q : Fin 384) (h : q.val < 256) : ix2 p q ∉ rHi.set := by
  rw [Rect.mem_set_unit]
  intro hm
  have h1 : 256 ≤ q.val := (hm (1 : Fin 2)).1
  omega

/-- Two pieces read back, the later (`hi`, columns 256–383) over the earlier (`lo`, columns 0–255): an entry in a
    column below 256 reads `lo` there, an entry in a column from 256 on reads `hi` at the column less 256. -/
theorem canon_two (hi : Vec Ideal S2048x128 .f32) (lo : Vec Ideal S2048x256 .f32) (p : Fin 2048) (q : Fin 384) :
    View.canon [(⟨rHi, hi⟩ : View.Piece (Elt Ideal) S2048x384 .f32), (⟨rLo, lo⟩ : View.Piece (Elt Ideal) S2048x384 .f32)] (ix2 p q)
      = if h : q.val < 256 then lo (ix2 p (⟨q.val, h⟩ : Fin 256))
        else hi (ix2 p (⟨q.val - 256, by have := q.isLt; omega⟩ : Fin 128)) := by
  by_cases h : q.val < 256
  · rw [dif_pos h]
    refine (View.canon_cons_of_not_mem (⟨rHi, hi⟩ : View.Piece (Elt Ideal) S2048x384 .f32)
      [(⟨rLo, lo⟩ : View.Piece (Elt Ideal) S2048x384 .f32)] (not_mem_high p q h)).trans ?_
    refine (congrArg (View.canon [(⟨rLo, lo⟩ : View.Piece (Elt Ideal) S2048x384 .f32)]) (emb_low p q h).symm).trans ?_
    exact View.canon_cons_emb rLo lo [] (ix2 p (⟨q.val, h⟩ : Fin 256))
  · rw [dif_neg h]
    refine (congrArg (View.canon [(⟨rHi, hi⟩ : View.Piece (Elt Ideal) S2048x384 .f32),
      (⟨rLo, lo⟩ : View.Piece (Elt Ideal) S2048x384 .f32)]) (emb_high p q h).symm).trans ?_
    exact View.canon_cons_emb rHi hi [(⟨rLo, lo⟩ : View.Piece (Elt Ideal) S2048x384 .f32)]
      (ix2 p (⟨q.val - 256, by have := q.isLt; omega⟩ : Fin 128))

/-- THE BLOCK: entry `(p, q)` of what the body leaves is `outRow` of row `p` of the input blocks, at column `q`. -/
theorem block_eq (c : Dev nD) (i : grid0.Coords) (arg1 : Memref sig .tc .vmem S2048x256 .f32) (harg1 : arg1.IsWhole)
    (arg2 : Memref sig .tc .vmem S2048x256 .f32) (harg2 : arg2.IsWhole) (arg3 : Memref sig .tc .vmem S2048x128 .f32) (harg3 : arg3.IsWhole)
    (arg4 : Memref sig .tc .vmem S2048x384 .f32) (harg4 : arg4.IsWhole)
    (x0 x1 : Vec Ideal S2048x256 .f32) (x2 : Vec Ideal S2048x128 .f32) (p : Fin 2048) (q : Fin 384) :
    out0_A_3 c i arg1 harg1 arg2 harg2 arg3 harg3 arg4 harg4 x0 x1 x2 (ix2 p q)
      = outRow (fun k => x0 (ix2 p k)) (fun k => x1 (ix2 p k)) (fun k => x2 (ix2 p k)) q := by
  unfold out0_A_3
  rw [View.read_writes_junk_eq_canon]
  unfold kernelRun0_A
  dsimp only
  sl_unfold_words
  simp only [View.readAt_eq_ld, harg1.read_unread, harg2.read_unread, harg3.read_unread,
    View.ld_unit_zero (S := S2048x256) zero_off, View.ld_unit_zero (S := S2048x128) zero_off]
  refine (canon_two x2 (k0_pay1 x0 x1) p q).trans ?_
  by_cases h : q.val < 256
  · rw [dif_pos h, outRow_lt _ _ _ q h]
    exact select_payload x0 x1 p ⟨q.val, h⟩
  · rw [dif_neg h, outRow_ge _ _ _ q h]

end Cert.KernelBlock

end
-- ==== Proof.KernelArray.lean ====
/-
  From blocks to the whole result array.

  The grid has two points.  At point `t` every window's block is rows `2048·t … 2048·t + 2047` of its array, all
  columns (the index maps are `(t, 0)`; decided over the two points).  So what point `t` writes back, entry
  `(p, q)` of its block, is `outRow` of row `2048·t + p` of the three arguments: block `t` of `outArr`.  The two blocks
  cover the 4096 rows (row `r` lies in block `r / 2048`), so after the run the result array is `outArr` of the
  arguments.
-/
import proofs.«109780_j10926396801967_2_alg».proof.Proof.Gen.KernelIdeal.Value
import proofs.«109780_j10926396801967_2_alg».proof.Proof.KernelPieces

set_option maxRecDepth 16384

noncomputable section

namespace Cert.KernelArray

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Value Cert.RowSpec

variable (m : (ℓ : Loc nD τ sig) → Buf (Elt Ideal) ℓ) (ρ : Dev nD → PrngReg)

/-- The printed index maps over the two grid points: each window's block index is the point's number along the rows
    and 0 along the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `2048·t + p` of the array. -/
abbrev rowOf (t : Fin cfg0.N) (p : Fin 2048) : Fin 4096 :=
  ⟨t.val * 2048 + p.val, by have ht : t.val < 2 := t.isLt; have := p.isLt; omega⟩

/-- Entry `(p, k)` of the first argument's block at point `t`. -/
theorem iblk0_apply (c : Dev nD) (t : Fin cfg0.N) (p : Fin 2048) (k : Fin 256) :
    iblk m c 0 t (ix2 p k) = V m c main_arg0 (ix2 (rowOf t p) k) := by
  obtain ⟨e00, e01, -⟩ := idx_facts t
  show V m c main_arg0 (((cfg0.win 0).blk t).view.emb (ix2 p k)) = _
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 256 + 1 * k.val = k.val; omega

/-- Entry `(p, k)` of the second argument's block at point `t`. -/
theorem iblk1_apply (c : Dev nD) (t : Fin cfg0.N) (p : Fin 2048) (k : Fin 256) :
    iblk m c 1 t (ix2 p k) = V m c main_arg1 (ix2 (rowOf t p) k) := by
  obtain ⟨-, -, e10, e11, -⟩ := idx_facts t
  show V m c main_arg1 (((cfg0.win 1).blk t).view.emb (ix2 p k)) = _
  refine congrArg _ (funext fun a => Fin.ext ?_)
  match a with
  | ⟨0, _⟩ => show win0_1.index t (0 : Fin 2) * 2048 + 1 * p.val = t.val * 2048 + p.val; omega
  | ⟨1, _⟩ => show win0_1.index t (1 : Fin 2) * 256 + 1 * k.val = k.val; omega

/-- Entry `(p, k)` of the third argument's block at point `t`. -/
theorem iblk2_apply (c : Dev nD) (t : Fin cfg0.N) (p : Fin 2048) (k : Fin 128) :
    iblk m c 2 t (ix2 p k) = V m c main_arg2 (ix2 (rowOf t p) k) := by
  obtain ⟨-, -, -, -, e20, e21, -⟩ := idx_facts t
  show V m c main_arg2 (((cfg0.win 2).blk t).view.emb (ix2 p k)) = _
  refine congrArg _ (funext fun a => Fin.ext ?_)
  match a with
  | ⟨0, _⟩ => show win0_2.index t (0 : Fin 2) * 2048 + 1 * p.val = t.val * 2048 + p.val; omega
  | ⟨1, _⟩ => show win0_2.index t (1 : Fin 2) * 128 + 1 * k.val = k.val; omega

/-- Entry `(p, q)` of the result's block at point `t` is entry `(2048·t + p, q)` of the array. -/
theorem out_emb (t : Fin cfg0.N) (p : Fin 2048) (q : Fin 384) :
    ((cfg0.win 3).blk t).view.emb (ix2 p q) = ix2 (rowOf t p) q := by
  obtain ⟨-, -, -, -, -, -, e30, e31⟩ := idx_facts t
  funext a; apply Fin.ext
  match a with
  | ⟨0, _⟩ => show win0_3.index t (0 : Fin 2) * 2048 + 1 * p.val = t.val * 2048 + p.val; omega
  | ⟨1, _⟩ => show win0_3.index t (1 : Fin 2) * 384 + 1 * q.val = q.val; omega

/-- WHAT POINT `t` WRITES BACK is block `t` of `outArr` of the argument arrays. -/
theorem flushed_eq (c : Dev nD) (t : Fin cfg0.N) :
    (dats m 0 c).flushed 3 t
      = ((cfg0.win 3).blk t).view.read (Elt Ideal) (outArr (V m c main_arg0) (V m c main_arg1) (V m c main_arg2)) := by
  rw [flushed3_A]
  funext y
  obtain ⟨p, q, rfl⟩ : ∃ (p : Fin 2048) (q : Fin 384), y = ix2 p q := ⟨y 0, y 1, eq_ix2 y⟩
  show out0_A_3 c (grid0.coords t) (ms0_0 t) (hs0_0 t) (ms0_1 t) (hs0_1 t) (ms0_2 t) (hs0_2 t) (ms0_3 t) (hs0_3 t)
      (iblk m c 0 t) (iblk m c 1 t) (iblk m c 2 t) (ix2 p q)
    = outArr (V m c main_arg0) (V m c main_arg1) (V m c main_arg2) (((cfg0.win 3).blk t).view.emb (ix2 p q))
  rw [Cert.KernelBlock.block_eq, out_emb, outArr_ix2]
  simp only [iblk0_apply, iblk1_apply, iblk2_apply]

/-- An index of the array is in point `t`'s block iff each coordinate is in the block's range on its axis. -/
theorem mem_blk (t : Fin cfg0.N) (i : S4096x384.Idx) :
    i ∈ ((cfg0.win 3).blk t).view.set ↔ ∀ a : Fin 2, win0_3.index t a * S2048x384.size a ≤ (i a).val ∧ (i a).val < win0_3.index t a * S2048x384.size a + S2048x384.size a := by
  show i ∈ ((View.whole main_v0).slice (win0_3.rect t)).set ↔ _
  rw [View.set_slice_whole, Rect.mem_set_unit]
  exact Iff.rfl

/-- Every entry of the array is in the block of the point its row falls in. -/
theorem covered (i : S4096x384.Idx) :
    ∃ t : Fin cfg0.N, (cfg0.win 3).flush t = true ∧ i ∈ ((cfg0.win 3).blk t).view.set := by
  have hi0 : (i 0).val < 4096 := (i 0).isLt
  have hi1 : (i 1).val < 384 := (i 1).isLt
  refine ⟨⟨(i 0).val / 2048, by show (i 0).val / 2048 < 2; omega⟩, flush0_3 _, ?_⟩
  obtain ⟨-, -, -, -, -, -, e30, e31⟩ := idx_facts ⟨(i 0).val / 2048, by show (i 0).val / 2048 < 2; omega⟩
  rw [mem_blk]
  intro a
  match a with
  | ⟨0, _⟩ =>
    show win0_3.index _ (0 : Fin 2) * 2048 ≤ (i 0).val ∧ (i 0).val < win0_3.index _ (0 : Fin 2) * 2048 + 2048
    rw [e30]; show (i 0).val / 2048 * 2048 ≤ (i 0).val ∧ (i 0).val < (i 0).val / 2048 * 2048 + 2048; omega
  | ⟨1, _⟩ =>
    show win0_3.index _ (1 : Fin 2) * 384 ≤ (i 1).val ∧ (i 1).val < win0_3.index _ (1 : Fin 2) * 384 + 384
    rw [e31]; omega

/-- THE ARRAY after the run is `outArr` of the argument arrays. -/
theorem final (c : Dev nD) :
    (dats m 0 c).arrAt 3 cfg0.N
      = outArr (m ((c : Thread nD τ).loc main_arg0)) (m ((c : Thread nD τ).loc main_arg1)) (m ((c : Thread nD τ).loc main_arg2)) :=
  (dats m 0 c).arrAt_eq_of_cover 3 (outArr (V m c main_arg0) (V m c main_arg1) (V m c main_arg2))
    (fun t _ => flushed_eq m c t) covered

/-- The kernel's run with the result array named: `outArr` of the arguments, which end unchanged. -/
theorem run : θ_run defs (onTc (τ := τ) (main (F := Ideal))) ⟨m, fun _ => 0, ρ⟩ fun r => ∀ c : Dev nD,
      r.2.mem ((c : Thread nD τ).loc main_v0)
        = outArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelArray

end
-- ==== Proof.lean ====
/-
  The kernel tiles 4096 rows into two blocks of 2048.  In each block it takes, per row, the largest and the smallest
  entry of the second input's row (lane reductions from `-∞` and `+∞`), multiplies the first input's entry by the
  largest where that entry is `≥ 0` and by the smallest elsewhere, writes those 256 products to columns 0–255 of the
  output block and the third input's 128 entries to columns 256–383.  The reference does the same on whole arrays:
  two reductions over the column axis, two broadcast products, a select, and a concatenation along the columns.

  At the extended reals both are ONE function of the arguments, `RowSpec.outArr`: output row `r` depends only on row
  `r` of each input.  The two sides apply the same operations to the same operands (the same three constant words
  `-∞`, `+∞`, `0`); the only difference is the order in which a row's maximum and minimum are folded, and `max` and
  `min` are commutative and associative, so no finiteness of the inputs is used.

    * RowSpec       the row function and the array function `outArr`;
    * RefSide       the reference's composed term is `outArr` (its concatenation read by column range, its
                    reductions as folds over the 256 columns);
    * KernelBlock   the kernel's select payload at an entry (lane reductions as the same folds; the column
                    cast-and-broadcast reads the row's value);
    * KernelPieces  the output block as its two written pieces read back;
    * KernelArray   point `t`'s block is rows `2048·t …` of every array, the two blocks cover the result, so the
                    result array after the run is `outArr` of the arguments.

  The three frames are the generated ones (the reference's is its generated run with the result dropped); the
  idealization rewrote nothing, so `preserves` has no conjunct.
-/
import proofs.«109780_j10926396801967_2_alg».proof.Defs
import proofs.«109780_j10926396801967_2_alg».proof.Proof.Gen.Kernel
import proofs.«109780_j10926396801967_2_alg».proof.Proof.Gen.Kernel.Skeleton
import proofs.«109780_j10926396801967_2_alg».proof.Proof.Gen.Kernel.Launch
import proofs.«109780_j10926396801967_2_alg».proof.Proof.Gen.Kernel.Points
import proofs.«109780_j10926396801967_2_alg».proof.Proof.Gen.Kernel.Frame
import proofs.«109780_j10926396801967_2_alg».proof.Proof.Gen.KernelIdeal
import proofs.«109780_j10926396801967_2_alg».proof.Proof.Gen.KernelIdeal.Skeleton
import proofs.«109780_j10926396801967_2_alg».proof.Proof.Gen.KernelIdeal.Launch
import proofs.«109780_j10926396801967_2_alg».proof.Proof.Gen.KernelIdeal.Points
import proofs.«109780_j10926396801967_2_alg».proof.Proof.Gen.KernelIdeal.Frame
import proofs.«109780_j10926396801967_2_alg».proof.Proof.Gen.ReferenceIdeal
import proofs.«109780_j10926396801967_2_alg».proof.Proof.Gen.Pre_finite_inputs
import proofs.«109780_j10926396801967_2_alg».proof.Proof.Gen.KernelIdeal.Value
import proofs.«109780_j10926396801967_2_alg».proof.Proof.Gen.ReferenceIdeal.Run
import proofs.«109780_j10926396801967_2_alg».proof.Proof.Gen.ReferenceIdeal.Read
import proofs.«109780_j10926396801967_2_alg».proof.Proof.RefSide
import proofs.«109780_j10926396801967_2_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end with the result array at `outArr` of them. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.RefSide.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
